-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S50000x1 : Shape := ⟨2, ![50000, 1]⟩
abbrev S800000x1 : Shape := ⟨2, ![800000, 1]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S50000x1 : S_.BroadcastsInDim S50000x1 (![] : Fin 0 → Fin S50000x1.rank)
  reducesTo_S50000x1_S_d0_1 : S50000x1.ReducesTo [0, 1] S_
  bcast_S_S800000x1 : S_.BroadcastsInDim S800000x1 (![] : Fin 0 → Fin S800000x1.rank)
  reducesTo_S800000x1_S_d0_1 : S800000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg9 : FVec F S64 .f32) (main_arg10 : FVec F S1x64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg10
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  main_v43

def fn_part1 {F : FTy → Type} [FloatOps F] (main_arg6 : FVec F S64x64 .f32) (main_arg7 : FVec F S64 .f32) (main_arg8 : FVec F S64x64 .f32) (main_arg9 : FVec F S64 .f32) (main_arg10 : FVec F S1x64 .f32) (main_v13 : IVec S_ 1) (main_v16 : IVec S800000x1 1) : IVec S_ 1 :=
  let main_c_5 : IVec S_ 1 := constantI S_ 1 1#1
  let main_v17 : IVec S_ 1 := (fun x v => Host.reduce IntOp.andi x v reducesTo_S800000x1_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_v33

def fn {F : FTy → Type} [FloatOps F] (main_arg0 : FVec F S50000x64 .f32) (main_arg1 : FVec F S800000x64 .f32) (main_arg2 : FVec F S50000x1 .f32) (main_arg3 : FVec F S800000x1 .f32) (main_arg4 : IVec S800000 32) (main_arg5 : IVec S800000 32) (main_arg6 : FVec F S64x64 .f32) (main_arg7 : FVec F S64 .f32) (main_arg8 : FVec F S64x64 .f32) (main_arg9 : FVec F S64 .f32) (main_arg10 : FVec F S1x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S50000x1 .f32 := Host.absf main_arg2
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S800000x1 .f32 := Host.absf main_arg3
  let main_cst_4 : FVec F S_ .f32 := constant S_ .f32 0x7F800000#32
  let main_v15 : FVec F S800000x1 .f32 := broadcastInDim S800000x1 ![] bcast_S_S800000x1 main_cst_4
  let main_v16 : IVec S800000x1 1 := cmpf .olt main_v14 main_v15
  fn_part1 (F := F) main_arg6 main_arg7 main_arg8 main_arg9 main_arg10 main_v13 main_v16
-- ==== Kernel.lean ====
abbrev S50000x64 : Shape := ⟨2, ![50000, 64]⟩
abbrev S800000x64 : Shape := ⟨2, ![800000, 64]⟩
abbrev S50000x1 : Shape := ⟨2, ![50000, 1]⟩
abbrev S800000x1 : Shape := ⟨2, ![800000, 1]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S5000x64 : Shape := ⟨2, ![5000, 64]⟩
abbrev S10000x64 : Shape := ⟨2, ![10000, 64]⟩
abbrev S_ : Shape := ⟨0, ![]⟩
abbrev S5000x1 : Shape := ⟨2, ![5000, 1]⟩

abbrev nBuf : Space → Nat
  | .hbm => 37
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S50000x1, .f32⟩
  | .hbm, ⟨3, _⟩ => ⟨S800000x1, .f32⟩
  | .hbm, ⟨4, _⟩ => ⟨S800000, .i32⟩
  | .hbm, ⟨5, _⟩ => ⟨S800000, .i32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S64x64, .f32⟩
  | .hbm, ⟨13, _⟩ => ⟨S1x64, .f32⟩
  | .hbm, ⟨14, _⟩ => ⟨S50000x64, .f32⟩
  | .hbm, ⟨15, _⟩ => ⟨S1x64, .f32⟩
  | .hbm, ⟨16, _⟩ => ⟨S800000x64, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S800000x64, .f32⟩
  | .hbm, ⟨27, _⟩ => ⟨S_, .f32⟩
  | .hbm, ⟨28, _⟩ => ⟨S800000x64, .f32⟩
  | .hbm, ⟨29, _⟩ => ⟨S800000x64, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call0_cst : Ref sig .tc := ⟨.hbm, 27, rfl⟩
abbrev main_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S10000x64_S10000x64_0_0 : ∀ a, (![0, 0] : Fin 2 → Nat) a + S10000x64.size a ≤ S10000x64.size a
  h_S10000x64 : 0 < S10000x64.numel
  broadcasts_S1x64_S10000x64 : S1x64.Broadcasts S10000x64
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  broadcasts_S5000x1_S5000x64 : S5000x1.Broadcasts S5000x64
  dot_S5000x64_S64x64_S5000x64_1_0_0_1_n_n_wf : DotDims.WF S5000x64 S64x64 S5000x64 [1] [0] [0] [1] [] []
  dot_S10000x64_S64x64_S10000x64_1_0_0_1_n_n_wf : DotDims.WF S10000x64 S64x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S800000x64.size a
  hwx1_0 : ∀ i : grid1.Coords, EltTy.bits .f32 = 32 ∨ (Rect.block (s := S800000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S800000x64.size a
  hwx1_3 : ∀ i : grid1.Coords, EltTy.bits .f32 = 32 ∨ (Rect.block (s := S800000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S50000x1 : Shape := ⟨2, ![50000, 1]⟩
abbrev S800000x1 : Shape := ⟨2, ![800000, 1]⟩
abbrev S800000 : Shape := ⟨1, ![800000]⟩
abbrev S64x64 : Shape := ⟨2, ![64, 64]⟩
abbrev S64 : Shape := ⟨1, ![64]⟩
abbrev S1x64 : Shape := ⟨2, ![1, 64]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S50000x1, .f32⟩
  | .hbm, ⟨3, _⟩ => ⟨S800000x1, .f32⟩
  | .hbm, ⟨4, _⟩ => ⟨S800000, .i32⟩
  | .hbm, ⟨5, _⟩ => ⟨S800000, .i32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S50000x64, .f32⟩
  | .hbm, ⟨13, _⟩ => ⟨S1x64, .f32⟩
  | .hbm, ⟨14, _⟩ => ⟨S50000x64, .f32⟩
  | .hbm, ⟨15, _⟩ => ⟨S50000x64, .f32⟩
  | .hbm, ⟨16, _⟩ => ⟨S64x64, .f32⟩
  | .hbm, ⟨17, _⟩ => ⟨S800000x64, .f32⟩
  | .hbm, ⟨18, _⟩ => ⟨S1x64, .f32⟩
  | .hbm, ⟨19, _⟩ => ⟨S800000x64, .f32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x64, .f32⟩
  | .hbm, ⟨31, _⟩ => ⟨S_, .f32⟩
  | .hbm, ⟨32, _⟩ => ⟨S800000x64, .f32⟩
  | .hbm, ⟨33, _⟩ => ⟨S800000x64, .f32⟩
  | .hbm, ⟨34, _⟩ => ⟨S800000x64, .f32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S_, .f32⟩
  | .hbm, ⟨43, _⟩ => ⟨S50000x64, .f32⟩
  | .hbm, ⟨44, _⟩ => ⟨S50000x64, .f32⟩
  | .hbm, ⟨45, _⟩ => ⟨S50000x64, .f32⟩
  | .hbm, ⟨46, _⟩ => ⟨S50000x64, .f32⟩
  | .hbm, ⟨47, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call1_cst : Ref sig .tc := ⟨.hbm, 42, rfl⟩
abbrev main_call1_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1x64_S800000x64_0_1 : S1x64.BroadcastsInDim S800000x64 (![0, 1] : Fin 2 → Fin S800000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  dot_S50000x64_S64x64_S50000x64_1_0_0_1_n_n_wf : DotDims.WF S50000x64 S64x64 S50000x64 [1] [0] [0] [1] [] []
  dot_S800000x64_S64x64_S800000x64_1_0_0_1_n_n_wf : DotDims.WF S800000x64 S64x64 S800000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.Spec.lean ====
/-
  The mathematics both programs compute, written once over literal shapes and the extended reals.

  A graph layer over 50000 nodes and 800000 edges with 64 features:
    h   = x · Wnᵀ + bn                      one row per node
    ep  = e · Weᵀ + be                      one row per edge
    out = agg + max (h + r, 0) / deg        where agg sums, per destination node, norm · max (h[src] + ep, 0)
  The two dense layers are stated here entry by entry as finite sums; the closing step entry by entry. The
  middle step (gather at the source index, add, clamp at zero, scale, sum into the destination row) is the same
  chain of host operations in both programs and is never opened: it is carried as one function of `h` and `ep`.
-/
import Idealize.ShloMosaic.Lib.ValueIdx

noncomputable section

open scoped BigOperators

namespace Cert.Spec

open Idealize.ShloMosaic Idealize.ShloMosaic.ValueIdx

/-- Node features, and every per-node array of 64 columns. -/
abbrev Nodes : Shape := ⟨2, ![50000, 64]⟩
/-- Edge features, and every per-edge array of 64 columns. -/
abbrev Edges : Shape := ⟨2, ![800000, 64]⟩
/-- A 64 × 64 weight matrix. -/
abbrev Sq : Shape := ⟨2, ![64, 64]⟩
/-- One row of 64 entries. -/
abbrev Row : Shape := ⟨2, ![1, 64]⟩
/-- One entry per node. -/
abbrev Col : Shape := ⟨2, ![50000, 1]⟩
/-- A bias vector. -/
abbrev Bias : Shape := ⟨1, ![64]⟩

/-- The node layer against an already transposed weight `wT` and a bias laid out as one row:
    entry (r, c) is Σ_k x[r, k] · wT[k, c] + b[0, c]. -/
def nodeLin (x : FVec Ideal Nodes .f32) (wT : FVec Ideal Sq .f32) (b : FVec Ideal Row .f32) : FVec Ideal Nodes .f32 :=
  fun i => (∑ k : Fin 64, x (ix2 (i 0) k) * wT (ix2 k (i 1))) + b (ix2 0 (i 1))

/-- The edge layer, the same formula over 800000 rows. -/
def edgeLin (x : FVec Ideal Edges .f32) (wT : FVec Ideal Sq .f32) (b : FVec Ideal Row .f32) : FVec Ideal Edges .f32 :=
  fun i => (∑ k : Fin 64, x (ix2 (i 0) k) * wT (ix2 k (i 1))) + b (ix2 0 (i 1))

/-- The transpose of a weight matrix, entry by entry. -/
def tr (w : FVec Ideal Sq .f32) : FVec Ideal Sq .f32 := fun j => w (ix2 (j 1) (j 0))

/-- A bias vector laid out as one row. -/
def row (b : FVec Ideal Bias .f32) : FVec Ideal Row .f32 := fun j => b (ix1 (j 1))

/-- The closing step: entry (r, c) is agg[r, c] + max (h[r, c] + res[0, c], 0) / deg[r, 0]. -/
def residual (agg h : FVec Ideal Nodes .f32) (deg : FVec Ideal Col .f32) (res : FVec Ideal Row .f32) : FVec Ideal Nodes .f32 :=
  fun i => agg i + Ideal.div (max (h i + res (ix2 0 (i 1))) 0) (deg (ix2 (i 0) 0))

end Cert.Spec

end
-- ==== Proof.NodeLayer.lean ====
import proofs.«430595_j9586367005318_3_alg».proof.Proof.Gen.KernelIdeal.Frame
import proofs.«430595_j9586367005318_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeLayer

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The node layer: one block of 5000 rows per grid point

  At a grid point the body loads a block of 5000 rows of the features, the whole transposed 64 × 64 weight and the
  bias row, multiplies the block by the weight into a zero accumulator, adds the bias row to every row, and stores
  the 5000 × 64 result. A change of float format is the identity on extended reals, so entry (p, q) of what it stores is
  Σ_k x[p, k] · wT[k, q] + b[0, q]. Block t is rows 5000·t … 5000·t + 4999 of the array, and the 10 blocks tile it. -/

/-- The zero offsets of a whole-buffer load or store. -/
theorem hz : (![0, 0] : Fin 2 → Nat) = fun _ => 0 := funext fun a => by fin_cases a <;> rfl

/-! ### The product read at an entry -/

theorem lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A block times the weight into a zero accumulator, at (p, q): the sum over the 64 columns of the block's row p
    against the weight's column q. -/
theorem matmul_at (x : FVec Ideal S5000x64 .bf16) (w : FVec Ideal S64x64 .bf16) (p : Fin 5000) (q : Fin 64) :
    matmul dot_S5000x64_S64x64_S5000x64_1_0_0_1_n_n none x w (constant (F := Ideal) S5000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs_0 _ _
    | ⟨1, _⟩ => exact (lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- What the body stores, at (p, q), from the three blocks it loaded. -/
theorem pay_at (x0 : Vec Ideal S5000x64 .f32) (x1 : Vec Ideal S64x64 .f32) (x2 : Vec Ideal S1x64 .f32) (p : Fin 5000) (q : Fin 64) :
    k0_pay1 x0 x1 x2 (ix2 p q) = (∑ k : Fin 64, x0 (ix2 p k) * x1 (ix2 k q)) + x2 (ix2 0 q) := by
  unfold k0_pay1
  show matmul dot_S5000x64_S64x64_S5000x64_1_0_0_1_n_n none (truncf .bf16 x0 bitsLt_bf16_f32)
        (truncf .bf16 (shapeCast S64x64 x1 shapeCasts_S64x64_S64x64) bitsLt_bf16_f32) (constant (F := Ideal) S5000x64 .f32 0x00000000#32) (ix2 p q)
      + broadcastTo S5000x64 (shapeCast S1x64 x2 shapeCasts_S1x64_S1x64) broadcasts_S1x64_S5000x64 (ix2 p q) = _
  rw [matmul_at, shapeCast_self, shapeCast_self, broadcastTo_1b_ab_apply]
  rfl

/-! ### The windows' blocks, decided over the grid -/

/-- The printed index maps over the 10 points: the feature window and the output window are at block row t, column
    block 0; the weight and the bias are the one block at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p, column k of the point's block of features is the array at the output entry's row and column k. -/
theorem read_x (c : Dev nD) (t : Fin cfg0.N) (p : Fin 5000) (q k : Fin 64) :
    iblk0 V c 0 t (ix2 p k) = V c main_arg0 (ix2 ((((cfg0.win 3).blk t).view.emb (ix2 p q)) 0) k) := by
  show V c main_arg0 (((cfg0.win 0).blk t).view.emb (ix2 p k)) = _
  refine congrArg (V c main_arg0) ?_
  obtain ⟨e0, e1, -, -, -, -, e6, -⟩ := idx_facts t
  funext a; apply Fin.ext
  match a with
  | ⟨0, _⟩ => show win0_0.index t (0 : Fin 2) * 5000 + 1 * p.val = win0_3.index t (0 : Fin 2) * 5000 + 1 * p.val; omega
  | ⟨1, _⟩ => show win0_0.index t (1 : Fin 2) * 64 + 1 * k.val = k.val; omega

/-- Row k, column q of the weight block is the weight array at (k, the output entry's column). -/
theorem read_w (c : Dev nD) (t : Fin cfg0.N) (p : Fin 5000) (q k : Fin 64) :
    iblk0 V c 1 t (ix2 k q) = V c main_v0 (ix2 k ((((cfg0.win 3).blk t).view.emb (ix2 p q)) 1)) := by
  show V c main_v0 (((cfg0.win 1).blk t).view.emb (ix2 k q)) = _
  refine congrArg (V c main_v0) ?_
  obtain ⟨-, -, e2, e3, -, -, -, e7⟩ := idx_facts t
  funext a; apply Fin.ext
  match a with
  | ⟨0, _⟩ => show win0_1.index t (0 : Fin 2) * 64 + 1 * k.val = k.val; omega
  | ⟨1, _⟩ => show win0_1.index t (1 : Fin 2) * 64 + 1 * q.val = win0_3.index t (1 : Fin 2) * 64 + 1 * q.val; omega

/-- Column q of the bias block is the bias row at the output entry's column. -/
theorem read_b (c : Dev nD) (t : Fin cfg0.N) (p : Fin 5000) (q : Fin 64) :
    iblk0 V c 2 t (ix2 0 q) = V c main_v2 (ix2 0 ((((cfg0.win 3).blk t).view.emb (ix2 p q)) 1)) := by
  show V c main_v2 (((cfg0.win 2).blk t).view.emb (ix2 0 q)) = _
  refine congrArg (V c main_v2) ?_
  obtain ⟨-, -, -, -, e4, e5, -, e7⟩ := idx_facts t
  funext a; apply Fin.ext
  match a with
  | ⟨0, _⟩ => show win0_2.index t (0 : Fin 2) * 1 + 1 * 0 = 0; omega
  | ⟨1, _⟩ => show win0_2.index t (1 : Fin 2) * 64 + 1 * q.val = win0_3.index t (1 : Fin 2) * 64 + 1 * q.val; omega

/-! ### From the blocks to the array -/

/-- What point t writes back is its block of the layer applied to the whole arrays. -/
theorem flushed_eq (c : Dev nD) (t : Fin cfg0.N) :
    (dat0 V c).flushed 3 t
      = ((cfg0.win 3).blk t).view.read (Elt Ideal) (Cert.Spec.nodeLin (V c main_arg0) (V c main_v0) (V c main_v2)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  refine (pay_at (iblk0 V c 0 t) (iblk0 V c 1 t) (iblk0 V c 2 t) p q).trans ?_
  show _ = Cert.Spec.nodeLin (V c main_arg0) (V c main_v0) (V c main_v2) (((cfg0.win 3).blk t).view.emb (ix2 p q))
  unfold Cert.Spec.nodeLin
  exact congrArg₂ (· + ·)
    (Finset.sum_congr rfl fun k _ => congrArg₂ (· * ·) (read_x V c t p q k) (read_w V c t p q k))
    (read_b V c t p q)

/-- An entry of the array is in point t's block iff each coordinate is in the block's range on its axis. -/
theorem mem_blk (t : Fin cfg0.N) (i : S50000x64.Idx) :
    i ∈ ((cfg0.win 3).blk t).view.set
      ↔ ∀ a : Fin 2, win0_3.index t a * S5000x64.size a ≤ (i a).val ∧ (i a).val < win0_3.index t a * S5000x64.size a + S5000x64.size a := by
  show i ∈ ((View.whole main_v3).slice (win0_3.rect t)).set ↔ _
  rw [View.set_slice_whole, Rect.mem_set_unit]
  exact Iff.rfl

/-- Every entry is in the block of the point its row falls in. -/
theorem covered (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  obtain ⟨-, -, -, -, -, -, e6, e7⟩ := idx_facts t
  have ht : t.val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The node layer's output array after its 10 grid points: one whole-array function of the three arrays the
    region reads, whatever they hold when the region is entered. -/
theorem arr (c : Dev nD) :
    (dat0 (F := Ideal) V c).arrAt 3 cfg0.N = Cert.Spec.nodeLin (V c main_arg0) (V c main_v0) (V c main_v2) :=
  (dat0 V c).arrAt_eq_of_cover 3 _ (fun t _ => flushed_eq V c t) (fun i => covered i)

end Cert.KernelIdeal.NodeLayer

end
-- ==== Proof.EdgeLayer.lean ====
import proofs.«430595_j9586367005318_3_alg».proof.Proof.Gen.KernelIdeal.Frame
import proofs.«430595_j9586367005318_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeLayer

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The edge layer: one block of 10000 rows per grid point

  At a grid point the body loads a block of 10000 rows of the features, the whole transposed 64 × 64 weight and the
  bias row, multiplies the block by the weight into a zero accumulator, adds the bias row to every row, and stores
  the 10000 × 64 result. A change of float format is the identity on extended reals, so entry (p, q) of what it stores is
  Σ_k x[p, k] · wT[k, q] + b[0, q]. Block t is rows 10000·t … 10000·t + 9999 of the array, and the 80 blocks tile it. -/

/-- The zero offsets of a whole-buffer load or store. -/
theorem hz : (![0, 0] : Fin 2 → Nat) = fun _ => 0 := funext fun a => by fin_cases a <;> rfl

/-! ### The product read at an entry -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- A block times the weight into a zero accumulator, at (p, q): the sum over the 64 columns of the block's row p
    against the weight's column q. -/
theorem matmul_at (x : FVec Ideal S10000x64 .bf16) (w : FVec Ideal S64x64 .bf16) (p : Fin 10000) (q : Fin 64) :
    matmul dot_S10000x64_S64x64_S10000x64_1_0_0_1_n_n none x w (constant (F := Ideal) S10000x64 .f32 0x00000000#32) (ix2 p q)
      = ∑ k : Fin 64, x (ix2 p k) * w (ix2 k q) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-- What the body stores, at (p, q), from the three blocks it loaded. -/
theorem pay_at (x0 : Vec Ideal S10000x64 .f32) (x1 : Vec Ideal S64x64 .f32) (x2 : Vec Ideal S1x64 .f32) (p : Fin 10000) (q : Fin 64) :
    k1_pay1 x0 x1 x2 (ix2 p q) = (∑ k : Fin 64, x0 (ix2 p k) * x1 (ix2 k q)) + x2 (ix2 0 q) := by
  unfold k1_pay1
  show matmul dot_S10000x64_S64x64_S10000x64_1_0_0_1_n_n none (truncf .bf16 x0 bitsLt_bf16_f32)
        (truncf .bf16 (shapeCast S64x64 x1 shapeCasts_S64x64_S64x64) bitsLt_bf16_f32) (constant (F := Ideal) S10000x64 .f32 0x00000000#32) (ix2 p q)
      + broadcastTo S10000x64 (shapeCast S1x64 x2 shapeCasts_S1x64_S1x64) broadcasts_S1x64_S10000x64 (ix2 p q) = _
  rw [matmul_at, shapeCast_self, shapeCast_self, broadcastTo_1b_ab_apply]
  rfl

/-! ### The windows' blocks, decided over the grid -/

/-- The printed index maps over the 80 points: the feature window and the output window are at block row t, column
    block 0; the weight and the bias are the one block at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p, column k of the point's block of features is the array at the output entry's row and column k. -/
theorem read_x (c : Dev nD) (t : Fin cfg1.N) (p : Fin 10000) (q k : Fin 64) :
    iblk1 V c 0 t (ix2 p k) = V c main_arg1 (ix2 ((((cfg1.win 3).blk t).view.emb (ix2 p q)) 0) k) := by
  show V c main_arg1 (((cfg1.win 0).blk t).view.emb (ix2 p k)) = _
  refine congrArg (V c main_arg1) ?_
  obtain ⟨e0, e1, -, -, -, -, e6, -⟩ := idx_facts t
  funext a; apply Fin.ext
  match a with
  | ⟨0, _⟩ => show win1_0.index t (0 : Fin 2) * 10000 + 1 * p.val = win1_3.index t (0 : Fin 2) * 10000 + 1 * p.val; omega
  | ⟨1, _⟩ => show win1_0.index t (1 : Fin 2) * 64 + 1 * k.val = k.val; omega

/-- Row k, column q of the weight block is the weight array at (k, the output entry's column). -/
theorem read_w (c : Dev nD) (t : Fin cfg1.N) (p : Fin 10000) (q k : Fin 64) :
    iblk1 V c 1 t (ix2 k q) = V c main_v1 (ix2 k ((((cfg1.win 3).blk t).view.emb (ix2 p q)) 1)) := by
  show V c main_v1 (((cfg1.win 1).blk t).view.emb (ix2 k q)) = _
  refine congrArg (V c main_v1) ?_
  obtain ⟨-, -, e2, e3, -, -, -, e7⟩ := idx_facts t
  funext a; apply Fin.ext
  match a with
  | ⟨0, _⟩ => show win1_1.index t (0 : Fin 2) * 64 + 1 * k.val = k.val; omega
  | ⟨1, _⟩ => show win1_1.index t (1 : Fin 2) * 64 + 1 * q.val = win1_3.index t (1 : Fin 2) * 64 + 1 * q.val; omega

/-- Column q of the bias block is the bias row at the output entry's column. -/
theorem read_b (c : Dev nD) (t : Fin cfg1.N) (p : Fin 10000) (q : Fin 64) :
    iblk1 V c 2 t (ix2 0 q) = V c main_v4 (ix2 0 ((((cfg1.win 3).blk t).view.emb (ix2 p q)) 1)) := by
  show V c main_v4 (((cfg1.win 2).blk t).view.emb (ix2 0 q)) = _
  refine congrArg (V c main_v4) ?_
  obtain ⟨-, -, -, -, e4, e5, -, e7⟩ := idx_facts t
  funext a; apply Fin.ext
  match a with
  | ⟨0, _⟩ => show win1_2.index t (0 : Fin 2) * 1 + 1 * 0 = 0; omega
  | ⟨1, _⟩ => show win1_2.index t (1 : Fin 2) * 64 + 1 * q.val = win1_3.index t (1 : Fin 2) * 64 + 1 * q.val; omega

/-! ### From the blocks to the array -/

/-- What point t writes back is its block of the layer applied to the whole arrays. -/
theorem flushed_eq (c : Dev nD) (t : Fin cfg1.N) :
    (dat1 V c).flushed 3 t
      = ((cfg1.win 3).blk t).view.read (Elt Ideal) (Cert.Spec.edgeLin (V c main_arg1) (V c main_v1) (V c main_v4)) := by
  show (cfg1.win 3).cut (grid1.coords t) ((dat1 V c).after 3 t) = _
  rw [after1_3]
  unfold out1_3
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  refine (pay_at (iblk1 V c 0 t) (iblk1 V c 1 t) (iblk1 V c 2 t) p q).trans ?_
  show _ = Cert.Spec.edgeLin (V c main_arg1) (V c main_v1) (V c main_v4) (((cfg1.win 3).blk t).view.emb (ix2 p q))
  unfold Cert.Spec.edgeLin
  exact congrArg₂ (· + ·)
    (Finset.sum_congr rfl fun k _ => congrArg₂ (· * ·) (read_x V c t p q k) (read_w V c t p q k))
    (read_b V c t p q)

/-- An entry of the array is in point t's block iff each coordinate is in the block's range on its axis. -/
theorem mem_blk (t : Fin cfg1.N) (i : S800000x64.Idx) :
    i ∈ ((cfg1.win 3).blk t).view.set
      ↔ ∀ a : Fin 2, win1_3.index t a * S10000x64.size a ≤ (i a).val ∧ (i a).val < win1_3.index t a * S10000x64.size a + S10000x64.size a := by
  show i ∈ ((View.whole main_v5).slice (win1_3.rect t)).set ↔ _
  rw [View.set_slice_whole, Rect.mem_set_unit]
  exact Iff.rfl

/-- Every entry is in the block of the point its row falls in. -/
theorem covered (i : S800000x64.Idx) :
    ∃ t : Fin cfg1.N, (cfg1.win 3).flush t = true ∧ i ∈ ((cfg1.win 3).blk t).view.set := by
  have hi0 : (i 0).val < 800000 := (i 0).isLt
  have hi1 : (i 1).val < 64 := (i 1).isLt
  have hN : cfg1.N = 80 := N_1
  let t : Fin cfg1.N := ⟨(i 0).val / 10000, by rw [hN]; omega⟩
  obtain ⟨-, -, -, -, -, -, e6, e7⟩ := idx_facts t
  have ht : t.val = (i 0).val / 10000 := rfl
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The edge layer's output array after its 80 grid points: one whole-array function of the three arrays the
    region reads, whatever they hold when the region is entered. -/
theorem arr (c : Dev nD) :
    (dat1 (F := Ideal) V c).arrAt 3 cfg1.N = Cert.Spec.edgeLin (V c main_arg1) (V c main_v1) (V c main_v4) :=
  (dat1 V c).arrAt_eq_of_cover 3 _ (fun t _ => flushed_eq V c t) (fun i => covered i)

end Cert.KernelIdeal.EdgeLayer

end
-- ==== Proof.LibColumnBroadcast.lean ====
/-
  A column broadcast over many columns, read at an entry.

  An array of shape [a, 1] (one value per row) broadcast to [a, b] holds, at (p, c), the operand's row p at its
  one column: the unit axis reads 0, the row axis reads through. The companion of the library's row form
  (one row [1, b] broadcast over many rows).
-/
import Idealize.ShloMosaic.Lib.Pipeline.Value
import Idealize.ShloMosaic.Lib.ValueIdx

namespace Cert.Lib

open Idealize.ShloMosaic Idealize.ShloMosaic.ValueIdx

/-- An `[a, 1]` array broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.Closing.lean ====
import proofs.«430595_j9586367005318_3_alg».proof.Proof.Gen.KernelIdeal.Frame
import proofs.«430595_j9586367005318_3_alg».proof.Proof.Spec
import proofs.«430595_j9586367005318_3_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Closing

open Cert.KernelIdeal Cert.KernelIdeal.Gen Idealize.ShloMosaic Idealize.ShloMosaic.TcCoe Idealize.ShloMosaic.ValueIdx Idealize.SL.Sem
open Idealize.ShloMosaic.Pipeline (Dat)
open Cert.Lib (broadcastTo_a1_ab_apply)

/-! ## The body's arithmetic at one entry -/

/-- The zero offsets of a whole-block access, however they are spelt. -/
theorem zero_offsets : (![0, 0] : Fin 2 → Nat) = fun _ => 0 := funext fun a => by fin_cases a <;> rfl

/-- The body's result at entry `(p, q)` of a block: the aggregate there, plus the clamped sum of the node row's entry
    and the residual row's entry of the same column, divided by the degree of the block's row `p`. -/
theorem payload_apply (xh : Vec Ideal S5000x64 .f32) (xres : Vec Ideal S1x64 .f32) (xagg : Vec Ideal S5000x64 .f32)
    (xdeg : Vec Ideal S5000x1 .f32) (p : Fin 5000) (q : Fin 64) :
    k2_pay1 xh xres xagg xdeg (ix2 p q)
      = xagg (ix2 p q) + Ideal.div (max (xh (ix2 p q) + xres (ix2 0 q)) 0) (xdeg (ix2 p 0)) := by
  unfold k2_pay1
  rw [shapeCast_self, shapeCast_self]
  rw [addf_apply, divf_apply, maximumf_apply, addf_apply, broadcast_apply, broadcastTo_1b_ab_apply,
    broadcastTo_a1_ab_apply]
  show _ + Ideal.div (max _ (Ideal.ofBits .f32 0x00000000#32)) _ = _
  rw [Ideal.ofBits_zero_f32]

/-- One entry of the body's result is the closing step at an array index `i`, as soon as the four entries it reads are
    the arrays' entries the closing step reads at `i`: the aggregate and the node row at `i`, the degree of `i`'s row,
    the residual row at `i`'s column. -/
theorem payload_eq_residual (agg h : FVec Ideal Cert.Spec.Nodes .f32) (deg : FVec Ideal Cert.Spec.Col .f32)
    (res : FVec Ideal Cert.Spec.Row .f32) (xh : Vec Ideal S5000x64 .f32) (xres : Vec Ideal S1x64 .f32)
    (xagg : Vec Ideal S5000x64 .f32) (xdeg : Vec Ideal S5000x1 .f32) (i : Cert.Spec.Nodes.Idx) (p : Fin 5000) (q : Fin 64)
    (eagg : xagg (ix2 p q) = agg i) (eh : xh (ix2 p q) = h i) (edeg : xdeg (ix2 p 0) = deg (ix2 (i 0) 0))
    (eres : xres (ix2 0 q) = res (ix2 0 (i 1))) :
    k2_pay1 xh xres xagg xdeg (ix2 p q) = Cert.Spec.residual agg h deg res i := by
  rw [payload_apply, eagg, eh, edeg, eres]
  rfl

/-! ## Where a grid point's blocks lie -/

/-- The windows' index maps over the ten grid points: the aggregate's, the node rows' and the degrees' blocks move down
    the rows with the output's block, which is block `t` at point `t`; the residual row stays at its one block; no window
    moves along the columns. -/
theorem index_facts : ∀ t : Fin cfg2.N,
    win2_0.index t (0 : Fin 2) = win2_4.index t (0 : Fin 2)
    ∧ win2_1.index t (0 : Fin 2) = win2_4.index t (0 : Fin 2)
    ∧ win2_2.index t (0 : Fin 2) = win2_4.index t (0 : Fin 2)
    ∧ win2_3.index t (0 : Fin 2) = 0
    ∧ win2_0.index t (1 : Fin 2) = 0
    ∧ win2_1.index t (1 : Fin 2) = 0
    ∧ win2_2.index t (1 : Fin 2) = 0
    ∧ win2_3.index t (1 : Fin 2) = 0
    ∧ win2_4.index t (1 : Fin 2) = 0
    ∧ win2_4.index t (0 : Fin 2) = t.val :=
  (by decide +kernel : ∀ t : Fin grid2.N, _)

/-- Entry `(p, q)` of the aggregate's block at point `t` sits in its array where entry `(p, q)` of the output's block
    sits in the output. -/
theorem emb_agg (t : Fin cfg2.N) (p : Fin 5000) (q : Fin 64) :
    ((cfg2.win 0).blk t).view.emb (ix2 p q) = ((cfg2.win 4).blk t).view.emb (ix2 p q) := by
  obtain ⟨e0, e1, e2, e3, f0, f1, f2, f3, f4, g⟩ := index_facts t
  funext a; apply Fin.ext
  match a with
  | ⟨0, _⟩ => show win2_0.index t (0 : Fin 2) * 5000 + 1 * p.val = win2_4.index t (0 : Fin 2) * 5000 + 1 * p.val; omega
  | ⟨1, _⟩ => show win2_0.index t (1 : Fin 2) * 64 + 1 * q.val = win2_4.index t (1 : Fin 2) * 64 + 1 * q.val; omega

/-- The same for the node rows' block. -/
theorem emb_h (t : Fin cfg2.N) (p : Fin 5000) (q : Fin 64) :
    ((cfg2.win 1).blk t).view.emb (ix2 p q) = ((cfg2.win 4).blk t).view.emb (ix2 p q) := by
  obtain ⟨e0, e1, e2, e3, f0, f1, f2, f3, f4, g⟩ := index_facts t
  funext a; apply Fin.ext
  match a with
  | ⟨0, _⟩ => show win2_1.index t (0 : Fin 2) * 5000 + 1 * p.val = win2_4.index t (0 : Fin 2) * 5000 + 1 * p.val; omega
  | ⟨1, _⟩ => show win2_1.index t (1 : Fin 2) * 64 + 1 * q.val = win2_4.index t (1 : Fin 2) * 64 + 1 * q.val; omega

/-- Entry `(p, 0)` of the degrees' block at point `t` is the degree of the row that holds entry `(p, q)` of the
    output's block. -/
theorem emb_deg (t : Fin cfg2.N) (p : Fin 5000) (q : Fin 64) :
    ((cfg2.win 2).blk t).view.emb (ix2 p (0 : Fin 1)) = ix2 ((((cfg2.win 4).blk t).view.emb (ix2 p q)) 0) (0 : Fin 1) := by
  obtain ⟨e0, e1, e2, e3, f0, f1, f2, f3, f4, g⟩ := index_facts t
  funext a; apply Fin.ext
  match a with
  | ⟨0, _⟩ => show win2_2.index t (0 : Fin 2) * 5000 + 1 * p.val = win2_4.index t (0 : Fin 2) * 5000 + 1 * p.val; omega
  | ⟨1, _⟩ => show win2_2.index t (1 : Fin 2) * 1 + 1 * 0 = 0; omega

/-- Entry `(0, q)` of the residual row's block, at every point, is the row's entry in the column that holds entry
    `(p, q)` of the output's block. -/
theorem emb_res (t : Fin cfg2.N) (p : Fin 5000) (q : Fin 64) :
    ((cfg2.win 3).blk t).view.emb (ix2 (0 : Fin 1) q) = ix2 (0 : Fin 1) ((((cfg2.win 4).blk t).view.emb (ix2 p q)) 1) := by
  obtain ⟨e0, e1, e2, e3, f0, f1, f2, f3, f4, g⟩ := index_facts t
  funext a; apply Fin.ext
  match a with
  | ⟨0, _⟩ => show win2_3.index t (0 : Fin 2) * 1 + 1 * 0 = 0; omega
  | ⟨1, _⟩ => show win2_3.index t (1 : Fin 2) * 64 + 1 * q.val = win2_4.index t (1 : Fin 2) * 64 + 1 * q.val; omega

variable (V : (c : Dev nD) → (b : Ref sig .tc) → Buf (Elt Ideal) ((c : Thread nD τ).loc b))

/-! ## From the blocks to the array -/

/-- What point `t` writes back is block `t` of the closing step of the four arrays as the region finds them: each entry
    of the body's result reads the aggregate and the node row where the entry itself lands, the degree of its row and
    the residual row's entry of its column. -/
theorem flushed_eq (c : Dev nD) (t : Fin cfg2.N) :
    (dat2 (F := Ideal) V c).flushed 4 t
      = ((cfg2.win 4).blk t).view.read (Elt Ideal)
          (Cert.Spec.residual (V c main_v19) (V c main_v3) (V c main_arg2) (V c main_arg10)) := by
  show (cfg2.win 4).cut (grid2.coords t) ((dat2 V c).after 4 t) = _
  rw [after2_4]
  unfold out2_4
  rw [View.canon_unit_zero zero_offsets]
  simp only [View.ld_unit_zero (S := S5000x64) zero_offsets, View.ld_unit_zero (S := S1x64) zero_offsets,
    View.ld_unit_zero (S := S5000x1) zero_offsets]
  funext j
  obtain ⟨p, q, rfl⟩ : ∃ (p : Fin 5000) (q : Fin 64), j = ix2 p q := ⟨j 0, j 1, eq_ix2 j⟩
  refine payload_eq_residual (V c main_v19) (V c main_v3) (V c main_arg2) (V c main_arg10) (iblk2 V c 1 t) (iblk2 V c 3 t)
    (iblk2 V c 0 t) (iblk2 V c 2 t) (((cfg2.win 4).blk t).view.emb (ix2 p q)) p q ?_ ?_ ?_ ?_
  · show V c main_v19 (((cfg2.win 0).blk t).view.emb (ix2 p q)) = _
    rw [emb_agg]
  · show V c main_v3 (((cfg2.win 1).blk t).view.emb (ix2 p q)) = _
    rw [emb_h]
  · show V c main_arg2 (((cfg2.win 2).blk t).view.emb (ix2 p (0 : Fin 1))) = _
    rw [emb_deg t p q]
    rfl
  · show V c main_arg10 (((cfg2.win 3).blk t).view.emb (ix2 (0 : Fin 1) q)) = _
    rw [emb_res t p q]
    rfl

/-- An index of the output array is in point `t`'s block iff each coordinate is in the block's range on its axis. -/
theorem mem_blk (t : Fin cfg2.N) (i : S50000x64.Idx) :
    i ∈ ((cfg2.win 4).blk t).view.set
      ↔ ∀ a : Fin 2, win2_4.index t a * S5000x64.size a ≤ (i a).val
          ∧ (i a).val < win2_4.index t a * S5000x64.size a + S5000x64.size a := by
  show i ∈ ((View.whole main_v20).slice (win2_4.rect t)).set ↔ _
  rw [View.set_slice_whole, Rect.mem_set_unit]
  exact Iff.rfl

/-- The ten blocks of 5000 rows tile the 50000 rows: row `r` is in the block of point `r / 5000`, which is written back. -/
theorem covered (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  obtain ⟨t, ht⟩ : ∃ t : Fin cfg2.N, t.val = (i 0).val / 5000 :=
    ⟨⟨(i 0).val / 5000, lt_of_lt_of_eq (by omega : (i 0).val / 5000 < 10) N_2.symm⟩, rfl⟩
  obtain ⟨e0, e1, e2, e3, f0, f1, f2, f3, f4, g⟩ := index_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 64 ≤ (i 1).val ∧ (i 1).val < win2_4.index t (1 : Fin 2) * 64 + 64
    omega

/-- The closing region's output array after its ten grid points. -/
theorem arr (c : Dev nD) :
    (dat2 (F := Ideal) V c).arrAt 4 cfg2.N = Cert.Spec.residual (V c main_v19) (V c main_v3) (V c main_arg2) (V c main_arg10) :=
  (dat2 (F := Ideal) V c).arrAt_eq_of_cover 4 _ (fun t _ => flushed_eq V c t) covered

end Cert.KernelIdeal.Closing

end
-- ==== Proof.Walk.lean ====
import proofs.«430595_j9586367005318_3_alg».proof.Proof.Gen.KernelIdeal.Frame
import proofs.«430595_j9586367005318_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Walk

open Cert.KernelIdeal Cert.KernelIdeal.Gen Idealize.ShloMosaic Idealize.ShloMosaic.TcCoe Idealize.ShloMosaic.ValueIdx Idealize.SL.Sem
open Idealize.ShloMosaic.Pipeline (Dat)

/-- The middle of the layer, the same chain of host operations in both programs: wrap a negative source index
    once by the node count, gather that row of `h`, add the edge's row of `ep`, clamp at zero, scale by the
    edge's norm, and add the row into the destination node's row of a zero array. Carried as ONE function of
    `h` and `ep`; nothing below looks inside it. -/
def mid (h : FVec Ideal S50000x64 .f32) (ep : FVec Ideal S800000x64 .f32) (nrm : FVec Ideal S800000x1 .f32)
    (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal) (broadcastInDim S800000x64 ![0, 1] bcast_S800000x1_S800000x64_0_1 nrm)
      (maximumf (F := Ideal)
        (addf (F := Ideal)
          (Host.gather gather_S50000x64_S800000x1_S800000x64_1_0_n_n_0_1_164 h
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src)))
          ep)
        (broadcastInDim S800000x64 ![] bcast_S_S800000x64 (constant (F := Ideal) S_ .f32 0x00000000#32))))

variable (m : (ℓ : Loc nD τ sig) → Buf (Elt Ideal) ℓ) (ρ : Dev nD → PrngReg)

/-- A stretch of host operations none of which writes buffer `b` leaves `b` holding what it held: the buffer is
    compared, as a reference, with each operation's result reference in turn. -/
local macro "unwritten" s:ident b:ident : term =>
  `(StableHlo.after_of_forall_not_mem (b := Proc.devRef .tc $b) _ _ (List.forall_iff_forall_mem.mp (by
      simp only [$s:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## What the node layer finds when it is entered -/

theorem V1_arg0 (c : Dev nD) : V1 m ρ c main_arg0 = m ((c : Thread nD τ).loc main_arg0) :=
  calc V1 m ρ c main_arg0
    _ = W0 m ρ c (Proc.devRef .tc main_arg0) := unwritten hostOps0 main_arg0
    _ = m ((c : Thread nD τ).loc main_arg0) := rfl
theorem V1_v0 (c : Dev nD) : V1 m ρ c main_v0 = Cert.Spec.tr (m ((c : Thread nD τ).loc main_arg6)) := by
  show StableHlo.after hostOps0 (W0 m ρ c) (Proc.devRef .tc main_v0) = _
  after_results
  funext j
  obtain ⟨p, q, rfl⟩ : ∃ (p : Fin 64) (q : Fin 64), j = ix2 p q := ⟨j 0, j 1, eq_ix2 j⟩
  rw [transpose_ix2_apply]
  rfl
theorem V1_v2 (c : Dev nD) : V1 m ρ c main_v2 = Cert.Spec.row (m ((c : Thread nD τ).loc main_arg7)) := by
  show StableHlo.after hostOps0 (W0 m ρ c) (Proc.devRef .tc main_v2) = _
  after_results
  funext j
  obtain ⟨p, q, rfl⟩ : ∃ (p : Fin 1) (q : Fin 64), j = ix2 p q := ⟨j 0, j 1, eq_ix2 j⟩
  exact shapeCast_a_1a_apply (W0 m ρ c (Proc.devRef .tc main_arg7)) shapeCasts_S64_S1x64 p q

/-! ## What the edge layer finds when it is entered -/

theorem V3_arg1 (c : Dev nD) : V3 m ρ c main_arg1 = m ((c : Thread nD τ).loc main_arg1) :=
  calc V3 m ρ c main_arg1
    _ = W2 m ρ c (Proc.devRef .tc main_arg1) := unwritten hostOps1 main_arg1
    _ = W1 m ρ c (Proc.devRef .tc main_arg1) := W2_of_ne m ρ c main_arg1 (by decide)
    _ = W0 m ρ c (Proc.devRef .tc main_arg1) := unwritten hostOps0 main_arg1
    _ = m ((c : Thread nD τ).loc main_arg1) := rfl
theorem V3_v1 (c : Dev nD) : V3 m ρ c main_v1 = Cert.Spec.tr (m ((c : Thread nD τ).loc main_arg8)) :=
  calc V3 m ρ c main_v1
    _ = W2 m ρ c (Proc.devRef .tc main_v1) := unwritten hostOps1 main_v1
    _ = W1 m ρ c (Proc.devRef .tc main_v1) := W2_of_ne m ρ c main_v1 (by decide)
    _ = Cert.Spec.tr (m ((c : Thread nD τ).loc main_arg8)) := by
      show StableHlo.after hostOps0 (W0 m ρ c) (Proc.devRef .tc main_v1) = _
      after_results
      funext j
      obtain ⟨p, q, rfl⟩ : ∃ (p : Fin 64) (q : Fin 64), j = ix2 p q := ⟨j 0, j 1, eq_ix2 j⟩
      rw [transpose_ix2_apply]
      rfl
theorem V3_v4 (c : Dev nD) : V3 m ρ c main_v4 = Cert.Spec.row (m ((c : Thread nD τ).loc main_arg9)) := by
  have h9 : W2 m ρ c (Proc.devRef .tc main_arg9) = m ((c : Thread nD τ).loc main_arg9) :=
    calc W2 m ρ c (Proc.devRef .tc main_arg9)
      _ = W1 m ρ c (Proc.devRef .tc main_arg9) := W2_of_ne m ρ c main_arg9 (by decide)
      _ = W0 m ρ c (Proc.devRef .tc main_arg9) := unwritten hostOps0 main_arg9
      _ = m ((c : Thread nD τ).loc main_arg9) := rfl
  show StableHlo.after hostOps1 (W2 m ρ c) (Proc.devRef .tc main_v4) = _
  after_results
  rw [h9]
  funext j
  obtain ⟨p, q, rfl⟩ : ∃ (p : Fin 1) (q : Fin 64), j = ix2 p q := ⟨j 0, j 1, eq_ix2 j⟩
  exact shapeCast_a_1a_apply (m ((c : Thread nD τ).loc main_arg9)) shapeCasts_S64_S1x64 p q

/-! ## What the closing region finds when it is entered -/

/-- An argument that neither of the first two regions holds among its arrays, and that no host operation before the
    second region's exit writes, still holds at that exit what it held at launch. -/
local macro "launched4" m:ident ρ:ident c:ident b:ident : term =>
  `((W4_of_ne $m $ρ $c $b (by decide)).trans ((unwritten hostOps1 $b).trans
      ((W2_of_ne $m $ρ $c $b (by decide)).trans ((unwritten hostOps0 $b).trans rfl))))

theorem W4_arg2 (c : Dev nD) : W4 m ρ c (Proc.devRef .tc main_arg2) = m ((c : Thread nD τ).loc main_arg2) :=
  launched4 m ρ c main_arg2
theorem W4_arg3 (c : Dev nD) : W4 m ρ c (Proc.devRef .tc main_arg3) = m ((c : Thread nD τ).loc main_arg3) :=
  launched4 m ρ c main_arg3
theorem W4_arg4 (c : Dev nD) : W4 m ρ c (Proc.devRef .tc main_arg4) = m ((c : Thread nD τ).loc main_arg4) :=
  launched4 m ρ c main_arg4
theorem W4_arg5 (c : Dev nD) : W4 m ρ c (Proc.devRef .tc main_arg5) = m ((c : Thread nD τ).loc main_arg5) :=
  launched4 m ρ c main_arg5
theorem W4_arg10 (c : Dev nD) : W4 m ρ c (Proc.devRef .tc main_arg10) = m ((c : Thread nD τ).loc main_arg10) :=
  launched4 m ρ c main_arg10

/-- The node layer's output array is not touched between its region's exit and the second region's exit. -/
theorem W4_v3 (c : Dev nD) : W4 m ρ c (Proc.devRef .tc main_v3) = (dat0 (V1 m ρ) c).arrAt 3 cfg0.N :=
  calc W4 m ρ c (Proc.devRef .tc main_v3)
    _ = W3 m ρ c (Proc.devRef .tc main_v3) := W4_of_ne m ρ c main_v3 (by decide)
    _ = W2 m ρ c (Proc.devRef .tc main_v3) := unwritten hostOps1 main_v3
    _ = (dat0 (V1 m ρ) c).arrAt 3 cfg0.N := W2_arr m ρ c 3
/-- The edge layer's output array at its region's exit. -/
theorem W4_v5 (c : Dev nD) : W4 m ρ c (Proc.devRef .tc main_v5) = (dat1 (V3 m ρ) c).arrAt 3 cfg1.N :=
  W4_arr m ρ c 3

/-! ### The three closing host stretches, each read over arbitrary contents `V` at its entry -/

section Stretches

variable (V : Valuation τ sig (Elt Ideal))

/-- The first stretch leaves in its last buffer: the source index wrapped once by the node count where negative,
    that row of the node array gathered per edge, and the edge array added to it. -/
theorem read_v13 : StableHlo.after hostOps2 V (Proc.devRef .tc main_v13) =
    addf (F := Ideal) (φ := .f32)
      (Host.gather (α := Ideal .f32) gather_S50000x64_S800000x1_S800000x64_1_0_n_n_0_1_164
        (V (Proc.devRef .tc main_v3) : FVec Ideal S50000x64 .f32)
        (broadcastInDim S800000x1 ![0] bcast_S800000_S800000x1_0
          (select
            (cmpi .slt (V (Proc.devRef .tc main_arg4) : IVec S800000 32)
              (broadcastInDim S800000 ![] bcast_S_S800000 (constantI S_ 32 0#32)))
            (addi (V (Proc.devRef .tc main_arg4) : IVec S800000 32)
              (broadcastInDim S800000 ![] bcast_S_S800000 (constantI S_ 32 50000#32)))
            (V (Proc.devRef .tc main_arg4) : IVec S800000 32))))
      (V (Proc.devRef .tc main_v5) : FVec Ideal S800000x64 .f32) := by
  after_results
  all_goals rfl

/-- The second stretch clamps that buffer at zero, entry by entry. -/
theorem read_v14 : StableHlo.after hostOps2_1 V (Proc.devRef .tc main_v14) =
    maximumf (F := Ideal) (V (Proc.devRef .tc main_v13) : FVec Ideal S800000x64 .f32)
      (broadcastInDim S800000x64 ![] bcast_S_S800000x64 (constant (F := Ideal) S_ .f32 0x00000000#32)) := by
  after_results
  all_goals rfl

/-- The third stretch scales each edge's row by the edge's norm and adds it into the destination node's row of a
    zero array. -/
theorem read_v19 : StableHlo.after hostOps2_2 V (Proc.devRef .tc main_v19) =
    Host.scatterAdd (F := Ideal) scatter_S50000x64_S800000x1_S800000x64_1_0_0_1
      (broadcastInDim S50000x64 ![] bcast_S_S50000x64 (constant (F := Ideal) S_ .f32 0x00000000#32))
      (broadcastInDim S800000x1 ![0] bcast_S800000_S800000x1_0 (V (Proc.devRef .tc main_arg5) : IVec S800000 32))
      (mulf (F := Ideal)
        (broadcastInDim S800000x64 ![0, 1] bcast_S800000x1_S800000x64_0_1
          (V (Proc.devRef .tc main_arg3) : FVec Ideal S800000x1 .f32))
        (V (Proc.devRef .tc main_v14) : FVec Ideal S800000x64 .f32)) := by
  after_results
  all_goals rfl

end Stretches

/-- A buffer none of the three closing host stretches writes enters the closing region as it left the second. -/
local macro "unwritten7" b:ident : term =>
  `((unwritten hostOps2_2 $b).trans ((unwritten hostOps2_1 $b).trans (unwritten hostOps2 $b)))

theorem V7_v19 (c : Dev nD) :
    V7 m ρ c main_v19 = mid ((dat0 (V1 m ρ) c).arrAt 3 cfg0.N) ((dat1 (V3 m ρ) c).arrAt 3 cfg1.N)
      (m ((c : Thread nD τ).loc main_arg3)) (m ((c : Thread nD τ).loc main_arg4)) (m ((c : Thread nD τ).loc main_arg5)) := by
  have e3 : W6 m ρ c (Proc.devRef .tc main_arg3) = m ((c : Thread nD τ).loc main_arg3) :=
    ((unwritten hostOps2_1 main_arg3).trans (unwritten hostOps2 main_arg3)).trans (W4_arg3 m ρ c)
  have e5 : W6 m ρ c (Proc.devRef .tc main_arg5) = m ((c : Thread nD τ).loc main_arg5) :=
    ((unwritten hostOps2_1 main_arg5).trans (unwritten hostOps2 main_arg5)).trans (W4_arg5 m ρ c)
  have r19 : W7 m ρ c (Proc.devRef .tc main_v19) = _ := read_v19 (W6 m ρ c)
  have r14 : W6 m ρ c (Proc.devRef .tc main_v14) = _ := read_v14 (W5 m ρ c)
  have r13 : W5 m ρ c (Proc.devRef .tc main_v13) = _ := read_v13 (W4 m ρ c)
  show W7 m ρ c (Proc.devRef .tc main_v19) = _
  rw [r19, r14, r13, e3, e5, W4_arg4, W4_v3, W4_v5]
  unfold mid
  rfl
theorem V7_v3 (c : Dev nD) : V7 m ρ c main_v3 = (dat0 (V1 m ρ) c).arrAt 3 cfg0.N :=
  calc V7 m ρ c main_v3
    _ = W4 m ρ c (Proc.devRef .tc main_v3) := unwritten7 main_v3
    _ = (dat0 (V1 m ρ) c).arrAt 3 cfg0.N := W4_v3 m ρ c
theorem V7_arg2 (c : Dev nD) : V7 m ρ c main_arg2 = m ((c : Thread nD τ).loc main_arg2) :=
  calc V7 m ρ c main_arg2
    _ = W4 m ρ c (Proc.devRef .tc main_arg2) := unwritten7 main_arg2
    _ = m ((c : Thread nD τ).loc main_arg2) := W4_arg2 m ρ c
theorem V7_arg10 (c : Dev nD) : V7 m ρ c main_arg10 = m ((c : Thread nD τ).loc main_arg10) :=
  calc V7 m ρ c main_arg10
    _ = W4 m ρ c (Proc.devRef .tc main_arg10) := unwritten7 main_arg10
    _ = m ((c : Thread nD τ).loc main_arg10) := W4_arg10 m ρ c

/-- The result buffer at the end of the run is the closing region's output array. -/
theorem W8_v20 (c : Dev nD) : W8 m ρ c (Proc.devRef .tc main_v20) = (dat2 (V7 m ρ) c).arrAt 4 cfg2.N :=
  W8_arr m ρ c 4

end Cert.KernelIdeal.Walk

end
-- ==== Proof.KernelValue.lean ====
import proofs.«430595_j9586367005318_3_alg».proof.Proof.NodeLayer
import proofs.«430595_j9586367005318_3_alg».proof.Proof.EdgeLayer
import proofs.«430595_j9586367005318_3_alg».proof.Proof.Closing
import proofs.«430595_j9586367005318_3_alg».proof.Proof.Walk
import proofs.«430595_j9586367005318_3_alg».proof.Proof.KernelRun

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The kernel's result, as one function of the launch arrays

  The result buffer ends at the closing region's output array; that array is the closing step of what the region
  found; what it found is the middle chain of the two dense layers' output arrays, and those are the layers of what
  THEIR regions found, which are the launch arrays (the weights transposed, the biases laid out as rows). -/

/-- The node layer of the launch arrays. -/
def h (c : Dev nD) : FVec Ideal S50000x64 .f32 :=
  Cert.Spec.nodeLin (m ((c : Thread nD τ).loc main_arg0)) (Cert.Spec.tr (m ((c : Thread nD τ).loc main_arg6))) (Cert.Spec.row (m ((c : Thread nD τ).loc main_arg7)))

/-- The edge layer of the launch arrays. -/
def ep (c : Dev nD) : FVec Ideal S800000x64 .f32 :=
  Cert.Spec.edgeLin (m ((c : Thread nD τ).loc main_arg1)) (Cert.Spec.tr (m ((c : Thread nD τ).loc main_arg8))) (Cert.Spec.row (m ((c : Thread nD τ).loc main_arg9)))

/-- The whole layer of the launch arrays. -/
def out (c : Dev nD) : FVec Ideal S50000x64 .f32 :=
  Cert.Spec.residual (Walk.mid (h m c) (ep m c) (m ((c : Thread nD τ).loc main_arg3)) (m ((c : Thread nD τ).loc main_arg4)) (m ((c : Thread nD τ).loc main_arg5))) (h m c) (m ((c : Thread nD τ).loc main_arg2)) (m ((c : Thread nD τ).loc main_arg10))

/-- The node layer's output array is the node layer of the launch arrays. -/
theorem node_arr (c : Dev nD) : (dat0 (V1 m ρ) c).arrAt 3 cfg0.N = h m c := by
  rw [NodeLayer.arr (V1 m ρ) c, Walk.V1_arg0, Walk.V1_v0, Walk.V1_v2]
  rfl

/-- The edge layer's output array is the edge layer of the launch arrays. -/
theorem edge_arr (c : Dev nD) : (dat1 (V3 m ρ) c).arrAt 3 cfg1.N = ep m c := by
  rw [EdgeLayer.arr (V3 m ρ) c, Walk.V3_arg1, Walk.V3_v1, Walk.V3_v4]
  rfl

/-- The result buffer at the end of the run. -/
theorem result (c : Dev nD) : W8 m ρ c (Proc.devRef .tc main_v20) = out m c := by
  rw [Walk.W8_v20, Closing.arr (V7 m ρ) c, Walk.V7_v19, Walk.V7_v3, Walk.V7_arg2, Walk.V7_arg10, node_arr, edge_arr]
  rfl

/-- Every weakly fair execution of the kernel's program ends with the result array at `out` of the launch arrays
    and the arguments as launched. -/
theorem run : θ_run defs (onTc (τ := τ) (main (F := Ideal))) ⟨m, fun _ => 0, ρ⟩ (fun r => ∀ c : Dev nD,
      r.2.mem ((c.tc : Thread nD τ).loc main_v20) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c => ⟨(hr c).1.trans (result m ρ c), (hr c).2⟩)
    (Cert.KernelIdeal.RunMain.run_main (F := Ideal) m ρ)

end Cert.KernelIdeal.KernelValue

end
-- ==== Proof.RefValue.lean ====
import proofs.«430595_j9586367005318_3_alg».proof.Proof.Gen.ReferenceIdeal.Read
import proofs.«430595_j9586367005318_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx Idealize.SL.Sem

/-- The middle of the layer, the same chain of host operations in both programs: wrap a negative source index
    once by the node count, gather that row of `h`, add the edge's row of `ep`, clamp at zero, scale by the
    edge's norm, and add the row into the destination node's row of a zero array. Carried as ONE function of
    `h` and `ep`; nothing below looks inside it. -/
def mid (h : FVec Ideal S50000x64 .f32) (ep : FVec Ideal S800000x64 .f32) (nrm : FVec Ideal S800000x1 .f32)
    (src dst : IVec S800000 32) : FVec Ideal S50000x64 .f32 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (mulf (F := Ideal) (broadcastInDim S800000x64 ![0, 1] bcast_S800000x1_S800000x64_0_1 nrm)
      (maximumf (F := Ideal)
        (addf (F := Ideal)
          (Host.gather gather_S50000x64_S800000x1_S800000x64_1_0_n_n_0_1_164 h
            (broadcastInDim S800000x1 ![0] bcast_S800000_S800000x1_0
              (select (cmpi .slt src (broadcastInDim S800000 ![] bcast_S_S800000 (constantI S_ 32 0#32)))
                (addi src (broadcastInDim S800000 ![] bcast_S_S800000 (constantI S_ 32 50000#32))) src)))
          ep)
        (broadcastInDim S800000x64 ![] bcast_S_S800000x64 (constant (F := Ideal) S_ .f32 0x00000000#32))))

/-! ### Index equations

Each of the reference's layout operations reads its operand at an index computed from the result's index. The
equations below say which entry that is, in the pair notation the specification uses. -/

/-- The left factor of the node product at result entry (r, c) and summand k is entry (r, k). -/
theorem lidx_node (i : S50000x64.Idx) (k : Fin 64) : lidx_main_v1 i k = ix2 (i 0) k :=
  funext fun a => match a with | ⟨0, _⟩ => rfl | ⟨1, _⟩ => rfl

/-- The right factor of the node product, read through the transpose, is entry (c, k) of the weight. -/
theorem ridx_node (i : S50000x64.Idx) (k : Fin 64) : idx_main_v0 (ridx_main_v1 i k) = ix2 (i 1) k :=
  funext fun a => match a with | ⟨0, _⟩ => rfl | ⟨1, _⟩ => rfl

/-- The node bias, broadcast to a row and then to every node, is read at the column. -/
theorem bidx_node (i : S50000x64.Idx) : idx_main_v2 (idx_main_v3 i) = ix1 (i 1) :=
  funext fun a => match a with | ⟨0, _⟩ => rfl

/-- The left factor of the edge product at result entry (r, c) and summand k is entry (r, k). -/
theorem lidx_edge (i : S800000x64.Idx) (k : Fin 64) : lidx_main_v6 i k = ix2 (i 0) k :=
  funext fun a => match a with | ⟨0, _⟩ => rfl | ⟨1, _⟩ => rfl

/-- The right factor of the edge product, read through the transpose, is entry (c, k) of the weight. -/
theorem ridx_edge (i : S800000x64.Idx) (k : Fin 64) : idx_main_v5 (ridx_main_v6 i k) = ix2 (i 1) k :=
  funext fun a => match a with | ⟨0, _⟩ => rfl | ⟨1, _⟩ => rfl

/-- The edge bias, broadcast to a row and then to every edge, is read at the column. -/
theorem bidx_edge (i : S800000x64.Idx) : idx_main_v7 (idx_main_v8 i) = ix1 (i 1) :=
  funext fun a => match a with | ⟨0, _⟩ => rfl

/-- The residual row, broadcast to every node, is read at (0, c). -/
theorem idx_res (i : S50000x64.Idx) : idx_main_v24 i = ix2 0 (i 1) :=
  funext fun a => match a with | ⟨0, _⟩ => rfl | ⟨1, _⟩ => rfl

/-- The degree column, broadcast to every feature, is read at (r, 0). -/
theorem idx_deg (i : S50000x64.Idx) : idx_main_v27 i = ix2 (i 0) 0 :=
  funext fun a => match a with | ⟨0, _⟩ => rfl | ⟨1, _⟩ => rfl

/-! ### The two dense layers -/

/-- The reference's node layer is the specification's: entry (r, c) is Σ_k x[r, k] · W[c, k] + b[c]. -/
theorem node_eq (x0 : (⟨S50000x64, .f32⟩ : BufTy).Contents (Elt Ideal)) (x6 : (⟨S64x64, .f32⟩ : BufTy).Contents (Elt Ideal))
    (x7 : (⟨S64, .f32⟩ : BufTy).Contents (Elt Ideal)) :
    val_main_v4 (F := Ideal) x0 x6 x7 = Cert.Spec.nodeLin x0 (Cert.Spec.tr x6) (Cert.Spec.row x7) := by
  funext i
  rw [val_main_v4_apply, val_main_v1_apply, val_main_v3_apply, val_main_v2_apply, bidx_node]
  have hs : ∀ k : Fin 64, x0 (lidx_main_v1 i k) * val_main_v0 (F := Ideal) x6 (ridx_main_v1 i k)
      = x0 (ix2 (i 0) k) * Cert.Spec.tr x6 (ix2 k (i 1)) := by
    intro k
    -- the transposed weight at (k, c) is the weight at (c, k)
    rw [val_main_v0_apply, lidx_node, ridx_node]
    rfl
  rw [Finset.sum_congr rfl fun k _ => hs k]
  -- the float addition of the extended reals is +, and the bias row at (0, c) is the bias at c
  rfl

/-- The reference's edge layer is the specification's: entry (r, c) is Σ_k e[r, k] · W[c, k] + b[c]. -/
theorem edge_eq (x1 : (⟨S800000x64, .f32⟩ : BufTy).Contents (Elt Ideal)) (x8 : (⟨S64x64, .f32⟩ : BufTy).Contents (Elt Ideal))
    (x9 : (⟨S64, .f32⟩ : BufTy).Contents (Elt Ideal)) :
    val_main_v9 (F := Ideal) x1 x8 x9 = Cert.Spec.edgeLin x1 (Cert.Spec.tr x8) (Cert.Spec.row x9) := by
  funext i
  rw [val_main_v9_apply, val_main_v6_apply, val_main_v8_apply, val_main_v7_apply, bidx_edge]
  have hs : ∀ k : Fin 64, x1 (lidx_main_v6 i k) * val_main_v5 (F := Ideal) x8 (ridx_main_v6 i k)
      = x1 (ix2 (i 0) k) * Cert.Spec.tr x8 (ix2 k (i 1)) := by
    intro k
    -- the transposed weight at (k, c) is the weight at (c, k)
    rw [val_main_v5_apply, lidx_edge, ridx_edge]
    rfl
  rw [Finset.sum_congr rfl fun k _ => hs k]
  -- the float addition of the extended reals is +, and the bias row at (0, c) is the bias at c
  rfl

/-! ### The middle chain -/

/-- The reference's scatter stage is the shared middle chain applied to its own two dense layers: the stages
    between are, operation for operation, the body of `mid`. -/
theorem scatter_eq (x0 : (⟨S50000x64, .f32⟩ : BufTy).Contents (Elt Ideal)) (x1 : (⟨S800000x64, .f32⟩ : BufTy).Contents (Elt Ideal))
    (x3 : (⟨S800000x1, .f32⟩ : BufTy).Contents (Elt Ideal))
    (x4 x5 : (⟨S800000, .i32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) :
    val_main_v23 (F := Ideal) x0 x1 x3 x4 x5 x6 x7 x8 x9
      = mid (val_main_v4 (F := Ideal) x0 x6 x7) (val_main_v9 (F := Ideal) x1 x8 x9) x3 x4 x5 := by
  unfold val_main_v23 val_main_v22 val_main_v21 val_main_cst val_main_v20 val_main_v19 val_main_v18 val_main_call0_v0
    val_main_call0_cst val_main_v17 val_main_v16 val_main_v15 val_main_v14 val_main_v13 val_main_v12 val_main_c_0
    val_main_v11 val_main_v10 val_main_c mid
  rfl

/-- The reference's result, as the specification's functions of its eleven arguments. -/
theorem result_eq (x0 : (⟨S50000x64, .f32⟩ : BufTy).Contents (Elt Ideal)) (x1 : (⟨S800000x64, .f32⟩ : BufTy).Contents (Elt Ideal))
    (x2 : (⟨S50000x1, .f32⟩ : BufTy).Contents (Elt Ideal)) (x3 : (⟨S800000x1, .f32⟩ : BufTy).Contents (Elt Ideal))
    (x4 x5 : (⟨S800000, .i32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x10 : (⟨S1x64, .f32⟩ : BufTy).Contents (Elt Ideal)) :
    val_main_v29 (F := Ideal) x0 x1 x2 x3 x4 x5 x6 x7 x8 x9 x10
      = Cert.Spec.residual
          (mid (Cert.Spec.nodeLin x0 (Cert.Spec.tr x6) (Cert.Spec.row x7)) (Cert.Spec.edgeLin x1 (Cert.Spec.tr x8) (Cert.Spec.row x9)) x3 x4 x5)
          (Cert.Spec.nodeLin x0 (Cert.Spec.tr x6) (Cert.Spec.row x7)) x2 x10 := by
  funext i
  rw [val_main_v29_apply, val_main_v28_apply, val_main_v27_apply, val_main_v26_apply, val_main_v25_apply,
    val_main_v24_apply, val_main_call1_v0_apply, val_main_call1_cst_apply, scatter_eq, node_eq, edge_eq, idx_res, idx_deg,
    Ideal.ofBits_def, Ideal.ofBits_zero_f32]
  -- Both sides are now agg[r, c] + max (h[r, c] + res[0, c], 0) / deg[r, 0]: over the extended reals the float
  -- operations are +, max and the division itself, and the zero word is 0.
  rfl

end Cert.ReferenceIdeal.RefValue

end
-- ==== Proof.lean ====
/-
  A graph layer over 50000 nodes and 800000 edges with 64 features, as a TPU program of three kernel regions against
  its array-language reference, over the extended reals:

    h   = x · Wnᵀ + bn          (region 1, ten blocks of 5000 node rows)
    ep  = e · Weᵀ + be          (region 2, eighty blocks of 10000 edge rows)
    agg = Σ over edges into the destination row of norm · max (h[src] + ep, 0)     (host operations, both programs)
    out = agg + max (h + r, 0) / deg   (region 3, ten blocks of 5000 node rows)

  Why the two programs agree. Each dense region multiplies a block of rows by the transposed weight into a zero
  accumulator and adds the bias row; on extended reals a change of float format is the identity and the product into a
  zero accumulator is the plain sum over the 64 columns, which is also what the reference's contraction is; the blocks
  tile the array, so the region's output array is the whole-array layer (Proof/NodeLayer.lean, Proof/EdgeLayer.lean).
  The middle chain is the same operations in the same order in both programs and is carried as one function of h and ep,
  never opened (Proof/Walk.lean, Proof/RefValue.lean). The closing region is pointwise and its blocks tile the array
  (Proof/Closing.lean); the reference's closing operations read entry by entry are the same expression
  (Proof/RefValue.lean). No law used here needs finiteness: sums over the 64 columns are only reindexed, never
  distributed over, so the precondition is not opened. The ideal pass rewrote nothing, so the kernel's idealization
  is its own text read at the extended reals.
-/
import proofs.«430595_j9586367005318_3_alg».proof.Defs
import proofs.«430595_j9586367005318_3_alg».proof.Proof.Gen.Kernel
import proofs.«430595_j9586367005318_3_alg».proof.Proof.Gen.Kernel.Skeleton
import proofs.«430595_j9586367005318_3_alg».proof.Proof.Gen.Kernel.Launch
import proofs.«430595_j9586367005318_3_alg».proof.Proof.Gen.Kernel.Points
import proofs.«430595_j9586367005318_3_alg».proof.Proof.Gen.Kernel.Frame
import proofs.«430595_j9586367005318_3_alg».proof.Proof.Gen.KernelIdeal
import proofs.«430595_j9586367005318_3_alg».proof.Proof.Gen.KernelIdeal.Skeleton
import proofs.«430595_j9586367005318_3_alg».proof.Proof.Gen.KernelIdeal.Launch
import proofs.«430595_j9586367005318_3_alg».proof.Proof.Gen.KernelIdeal.Points
import proofs.«430595_j9586367005318_3_alg».proof.Proof.Gen.KernelIdeal.Frame
import proofs.«430595_j9586367005318_3_alg».proof.Proof.Gen.ReferenceIdeal
import proofs.«430595_j9586367005318_3_alg».proof.Proof.Gen.Pre_finite_inputs
import proofs.«430595_j9586367005318_3_alg».proof.Proof.Gen.ReferenceIdeal.Run
import proofs.«430595_j9586367005318_3_alg».proof.Proof.Gen.ReferenceIdeal.Read
import proofs.«430595_j9586367005318_3_alg».proof.Proof.KernelValue
import proofs.«430595_j9586367005318_3_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The middle chain is spelt once with each program's own dimension records; the records have the same fields, so
    the two spellings are one function. -/
theorem mid_eq (h : FVec Ideal Cert.KernelIdeal.S50000x64 .f32) (ep : FVec Ideal Cert.KernelIdeal.S800000x64 .f32)
    (nrm : FVec Ideal Cert.KernelIdeal.S800000x1 .f32) (src dst : IVec Cert.KernelIdeal.S800000 32) :
    Cert.ReferenceIdeal.RefValue.mid h ep nrm src dst = Cert.KernelIdeal.Walk.mid h ep nrm src dst := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the eleven arguments, end with the result array at the same
    function of those arguments. -/
theorem algebraic : Cert.algebraic_KernelIdeal_ReferenceIdeal := by
  intro m ρ m' ρ' _ hagree
  refine ⟨fun c => Cert.KernelIdeal.KernelValue.out m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [h0, h1, h2, h3, h4, h5, h6, h7, h8, h9, h10]
  refine (Cert.ReferenceIdeal.Read.val_main_v29_eq (F := Ideal) _ _ _ _ _ _ _ _ _ _ _).trans ?_
  rw [Cert.ReferenceIdeal.RefValue.result_eq, mid_eq]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
